-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x384x512 : Shape := ⟨3, ![32, 384, 512]⟩
abbrev S32x512x4096 : Shape := ⟨3, ![32, 512, 4096]⟩
abbrev S_ : Shape := ⟨0, ![]⟩

class Facts : Prop where
  bcast_S_S32x384x512 : S_.BroadcastsInDim S32x384x512 (![] : Fin 0 → Fin S32x384x512.rank)
  reducesTo_S32x384x512_S_d0_1_2 : S32x384x512.ReducesTo [0, 1, 2] S_
  h_S_ : 0 < S_.numel
  bcast_S_S32x512x4096 : S_.BroadcastsInDim S32x512x4096 (![] : Fin 0 → Fin S32x512x4096.rank)
  reducesTo_S32x512x4096_S_d0_1_2 : S32x512x4096.ReducesTo [0, 1, 2] S_

variable [Facts]

def fn {F : FTy → Type} [FloatOps F] (main_arg0 : FVec F S32x384x512 .f32) (main_arg1 : FVec F S32x512x4096 .f32) : IVec S_ 1 :=
  let main_v0 : FVec F S32x384x512 .f32 := Host.absf main_arg0
  let main_cst : FVec F S_ .f32 := constant S_ .f32 0x7F800000#32
  let main_v1 : FVec F S32x384x512 .f32 := broadcastInDim S32x384x512 ![] bcast_S_S32x384x512 main_cst
  let main_v2 : IVec S32x384x512 1 := cmpf .olt main_v0 main_v1
  let main_c : IVec S_ 1 := constantI S_ 1 1#1
  let main_v3 : IVec S_ 1 := (fun x v => Host.reduce IntOp.andi x v reducesTo_S32x384x512_S_d0_1_2 h_S_) main_v2 main_c
  let main_v4 : FVec F S32x512x4096 .f32 := Host.absf main_arg1
  let main_cst_0 : FVec F S_ .f32 := constant S_ .f32 0x7F800000#32
  let main_v5 : FVec F S32x512x4096 .f32 := broadcastInDim S32x512x4096 ![] bcast_S_S32x512x4096 main_cst_0
  let main_v6 : IVec S32x512x4096 1 := cmpf .olt main_v4 main_v5
  let main_c_1 : IVec S_ 1 := constantI S_ 1 1#1
  let main_v7 : IVec S_ 1 := (fun x v => Host.reduce IntOp.andi x v reducesTo_S32x512x4096_S_d0_1_2 h_S_) main_v6 main_c_1
  let main_v8 : IVec S_ 1 := andi main_v3 main_v7
  main_v8
-- ==== Kernel.lean ====
abbrev S32x384x512 : Shape := ⟨3, ![32, 384, 512]⟩
abbrev S32x512x4096 : Shape := ⟨3, ![32, 512, 4096]⟩
abbrev S32x384x4096 : Shape := ⟨3, ![32, 384, 4096]⟩
abbrev S1x384x512 : Shape := ⟨3, ![1, 384, 512]⟩
abbrev S1x512x4096 : Shape := ⟨3, ![1, 512, 4096]⟩
abbrev S1x384x4096 : Shape := ⟨3, ![1, 384, 4096]⟩
abbrev S384x512 : Shape := ⟨2, ![384, 512]⟩
abbrev S512x4096 : Shape := ⟨2, ![512, 4096]⟩
abbrev S384x4096 : Shape := ⟨2, ![384, 4096]⟩

abbrev nBuf : Space → Nat
  | .hbm => 3
  | .vmem => 6
  | .smem => 0
  | _ => 0

abbrev bufTy : (tb : Table) → Fin (tcTables nBuf tb) → BufTy
  | .hbm, ⟨0, _⟩ => ⟨S32x384x512, .f32⟩
  | .hbm, ⟨1, _⟩ => ⟨S32x512x4096, .f32⟩
  | .hbm, ⟨2, _⟩ => ⟨S32x384x4096, .f32⟩
  | .local _ .vmem, ⟨0, _⟩ => ⟨S1x384x512, .f32⟩
  | .local _ .vmem, ⟨1, _⟩ => ⟨S1x384x512, .f32⟩
  | .local _ .vmem, ⟨2, _⟩ => ⟨S1x512x4096, .f32⟩
  | .local _ .vmem, ⟨3, _⟩ => ⟨S1x512x4096, .f32⟩
  | .local _ .vmem, ⟨4, _⟩ => ⟨S1x384x4096, .f32⟩
  | .local _ .vmem, ⟨5, _⟩ => ⟨S1x384x4096, .f32⟩
  | _, _ => ⟨S32x384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x384x512_S1x384x512_0_0_0 : ∀ a, (![0, 0, 0] : Fin 3 → Nat) a + S1x384x512.size a ≤ S1x384x512.size a
  h_S1x384x512 : 0 < S1x384x512.numel
  shapeCasts_S1x384x512_S384x512 : S1x384x512.ShapeCasts S384x512
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x384x4096_S1x384x4096_0_0_0 : ∀ a, (![0, 0, 0] : Fin 3 → Nat) a + S1x384x4096.size a ≤ S1x384x4096.size a
  h_S1x384x4096 : 0 < S1x384x4096.numel
  shapeCasts_S1x384x4096_S384x4096 : S1x384x4096.ShapeCasts S384x4096
  shapeCasts_S384x4096_S1x384x4096 : S384x4096.ShapeCasts S1x384x4096
  dot_S384x512_S512x4096_S384x4096_1_0_0_1_n_n_wf : DotDims.WF S384x512 S512x4096 S384x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x512.size a ≤ S32x384x512.size a
  hwx0_0 : ∀ i : grid0.Coords, EltTy.bits .f32 = 32 ∨ (Rect.block (s := S32x384x512) S1x384x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S32x512x4096.size a
  hwx0_1 : ∀ i : grid0.Coords, EltTy.bits .f32 = 32 ∨ (Rect.block (s := S32x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384x4096.size a ≤ S32x384x4096.size a
  hwx0_2 : ∀ i : grid0.Coords, EltTy.bits .f32 = 32 ∨ (Rect.block (s := S32x384x4096) S1x384x4096.size (cc0_transform_2 i) (hinb0_2 i)).WholeWords (EltTy.packing .f32)

variable [Facts₀]

def dot_S384x512_S512x4096_S384x4096_1_0_0_1_n_n : DotDims S384x512 S512x4096 S384x4096 where
  lhsContracting := [1]
  rhsContracting := [0]
  lhsNonContracting := [0]
  rhsNonContracting := [1]
  lhsBatch := []
  rhsBatch := []
  wf := dot_S384x512_S512x4096_S384x4096_1_0_0_1_n_n_wf

abbrev win0_0 : Pipeline.Window sig grid0 :=
  Pipeline.Window.ofSpec (Memref.whole main_arg0) S1x384x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x384x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x384x512 : Shape := ⟨3, ![32, 384, 512]⟩
abbrev S32x512x4096 : Shape := ⟨3, ![32, 512, 4096]⟩
abbrev S32x384x4096 : Shape := ⟨3, ![32, 384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S32x384x512, .f32⟩
  | .hbm, ⟨1, _⟩ => ⟨S32x512x4096, .f32⟩
  | .hbm, ⟨2, _⟩ => ⟨S32x384x4096, .f32⟩
  | _, _ => ⟨S32x384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x384x512_S32x512x4096_S32x384x4096_2_1_1_2_0_0_wf : DotDims.WF S32x384x512 S32x512x4096 S32x384x4096 [2] [1] [1] [2] [0] [0]

variable [Facts₀]

def dot_S32x384x512_S32x512x4096_S32x384x4096_2_1_1_2_0_0 : DotDims S32x384x512 S32x512x4096 S32x384x4096 where
  lhsContracting := [2]
  rhsContracting := [1]
  lhsNonContracting := [1]
  rhsNonContracting := [2]
  lhsBatch := [0]
  rhsBatch := [0]
  wf := dot_S32x384x512_S32x512x4096_S32x384x4096_2_1_1_2_0_0_wf

class Facts : Prop extends Facts₀ where

variable [Facts]
-- ==== Proof.Expand.lean ====
/-
  What the length regulator computes. A text-rate feature map `x[b]` (384 channels by 512 text positions) is carried to
  the mel rate by an alignment matrix `path[b]` (512 text positions by 4096 frames): for every batch element the result is
  the matrix product `x[b] · path[b]`, that is

      out[b, d, t] = Σ_n x[b, d, n] · path[b, n, t].

  On the extended reals the sum over the 512 text positions is a finite sum in a commutative monoid, so it has one
  value however its terms are ordered or grouped.
-/
import Idealize.ShloMosaic.PureOps.Ideal
import Idealize.ShloMosaic.Lib.ValueIdx

noncomputable section

namespace Cert.LengthRegulator

open Idealize.ShloMosaic Idealize.ShloMosaic.ValueIdx
open scoped BigOperators

/-- The batched product at an output position `(b, d, t)`: the sum over the text position `n` of `x[b, d, n] · path[b, n, t]`. -/
def expand (x : (⟨3, ![32, 384, 512]⟩ : Shape).Idx → EReal) (path : (⟨3, ![32, 512, 4096]⟩ : Shape).Idx → EReal) :
    (⟨3, ![32, 384, 4096]⟩ : Shape).Idx → EReal :=
  fun i => ∑ n : Fin 512, x (ix3 (i 0) (i 1) n) * path (ix3 (i 0) n (i 2))

end Cert.LengthRegulator

end
-- ==== Proof.EinsumIsExpand.lean ====
/-
  The reference's one operation is a `dot_general` that keeps axis 0 of both operands as a batch axis and contracts the
  left operand's axis 2 with the right operand's axis 1. Read at an output position `(b, d, t)` it is the sum over
  `n` of `x[b, d, n] · path[b, n, t]`: the batched product `expand`.
-/
import proofs.«164119_j51084341019265_1_alg».proof.Proof.Gen.ReferenceIdeal.Read
import proofs.«164119_j51084341019265_1_alg».proof.Proof.Expand

noncomputable section

namespace Cert.LengthRegulator

open Cert.ReferenceIdeal Cert.ReferenceIdeal.Read Idealize.ShloMosaic Idealize.ShloMosaic.ValueIdx
open scoped BigOperators

/-- The left operand's position for output `i` and text position `n` is `(b, d, n)`. -/
theorem left_pos (i : S32x384x4096.Idx) (n : Fin 512) : lidx_main_v0 i n = ix3 (i 0) (i 1) n :=
  funext fun a => Fin.ext (by match a with | ⟨0, _⟩ => rfl | ⟨1, _⟩ => rfl | ⟨2, _⟩ => rfl)

/-- The right operand's position for output `i` and text position `n` is `(b, n, t)`. -/
theorem right_pos (i : S32x384x4096.Idx) (n : Fin 512) : ridx_main_v0 i n = ix3 (i 0) n (i 2) :=
  funext fun a => Fin.ext (by match a with | ⟨0, _⟩ => rfl | ⟨1, _⟩ => rfl | ⟨2, _⟩ => rfl)

/-- The reference's result, as a function of its two arguments, is the batched product. -/
theorem einsum_eq_expand (x : (⟨S32x384x512, .f32⟩ : BufTy).Contents (Elt Ideal)) (path : (⟨S32x512x4096, .f32⟩ : BufTy).Contents (Elt Ideal)) :
    val_main_v0 (F := Ideal) x path = expand x path := by
  funext i
  rw [val_main_v0_apply]
  unfold expand
  refine Finset.sum_congr rfl fun n _ => ?_
  rw [left_pos, right_pos]
  rfl

end Cert.LengthRegulator

end
-- ==== Proof.BlockProduct.lean ====
/-
  One grid point of the kernel, read at an index. The body loads the point's whole `x` block [1, 384, 512] and `path`
  block [1, 512, 4096], drops the unit batch axis of each, narrows both to bf16 (no change of value on the extended
  reals), multiplies them on the matrix unit into a zero accumulator, and puts the unit axis back. So the stored block
  at `(u, d, t)` is the plain sum over the text position `n` of `x[0, d, n] · path[0, n, t]`.
-/
import proofs.«164119_j51084341019265_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LengthRegulator

open Cert.KernelIdeal Cert.KernelIdeal.Gen Idealize.ShloMosaic Idealize.ShloMosaic.ValueIdx
open scoped BigOperators

/-! ## The matrix unit's operand indices

The product contracts the left operand's axis 1 with the right operand's axis 0: at output position `(d, t)` and
contraction position `n` the left operand is read at `(d, n)` and the right at `(n, t)`. -/

theorem left_row (i : S384x4096.Idx) (q : dot_S384x512_S512x4096_S384x4096_1_0_0_1_n_n.contr.Idx) :
    (dot_S384x512_S512x4096_S384x4096_1_0_0_1_n_n.lhsIdx i q 0).val = (i 0).val := by
  unfold DotDims.lhsIdx
  rw [dif_neg (show ¬(0 : Fin S384x512.rank) ∈ dot_S384x512_S512x4096_S384x4096_1_0_0_1_n_n.lhsBatch by decide), dif_pos (show (0 : Fin S384x512.rank) ∈ dot_S384x512_S512x4096_S384x4096_1_0_0_1_n_n.lhsNonContracting by decide)]
  rfl
theorem left_col (i : S384x4096.Idx) (q : dot_S384x512_S512x4096_S384x4096_1_0_0_1_n_n.contr.Idx) :
    (dot_S384x512_S512x4096_S384x4096_1_0_0_1_n_n.lhsIdx i q 1).val = (q ⟨0, by decide⟩).val :=
  dot_S384x512_S512x4096_S384x4096_1_0_0_1_n_n.lhsIdx_val_of_single rfl i q
theorem right_row (i : S384x4096.Idx) (q : dot_S384x512_S512x4096_S384x4096_1_0_0_1_n_n.contr.Idx) :
    (dot_S384x512_S512x4096_S384x4096_1_0_0_1_n_n.rhsIdx i q 0).val = (q ⟨0, by decide⟩).val :=
  dot_S384x512_S512x4096_S384x4096_1_0_0_1_n_n.rhsIdx_val_of_single rfl i q
theorem right_col (i : S384x4096.Idx) (q : dot_S384x512_S512x4096_S384x4096_1_0_0_1_n_n.contr.Idx) :
    (dot_S384x512_S512x4096_S384x4096_1_0_0_1_n_n.rhsIdx i q 1).val = (i 1).val := by
  unfold DotDims.rhsIdx
  rw [dif_neg (show ¬(1 : Fin S512x4096.rank) ∈ dot_S384x512_S512x4096_S384x4096_1_0_0_1_n_n.rhsBatch by decide), dif_pos (show (1 : Fin S512x4096.rank) ∈ dot_S384x512_S512x4096_S384x4096_1_0_0_1_n_n.rhsNonContracting by decide)]
  rfl

/-! ## The product of two matrices at a position -/

/-- The matrix unit's result into a zero accumulator, at `(d, t)`: the sum over `n` of `a[d, n] · b[n, t]`. -/
theorem product_apply (a : FVec Ideal S384x512 .bf16) (b : FVec Ideal S512x4096 .bf16) (d : Fin 384) (t : Fin 4096) :
    matmul dot_S384x512_S512x4096_S384x4096_1_0_0_1_n_n none a b (constant (F := Ideal) S384x4096 .f32 0x00000000#32) (ix2 d t)
      = ∑ n : Fin 512, a (ix2 d n) * b (ix2 n t) := by
  simp only [matmul]
  rw [Ideal.matmul_constant_zero_apply, ← Equiv.sum_comp (contrEquiv1 dot_S384x512_S512x4096_S384x4096_1_0_0_1_n_n 512 rfl rfl).symm]
  refine Finset.sum_congr rfl fun n _ => ?_
  have hn := contrEquiv1_symm_val dot_S384x512_S512x4096_S384x4096_1_0_0_1_n_n 512 rfl rfl n
  have el : dot_S384x512_S512x4096_S384x4096_1_0_0_1_n_n.lhsIdx (ix2 d t) ((contrEquiv1 dot_S384x512_S512x4096_S384x4096_1_0_0_1_n_n 512 rfl rfl).symm n) = ix2 d n := funext fun x => Fin.ext (by
    match x with
    | ⟨0, _⟩ => exact left_row _ _
    | ⟨1, _⟩ => exact (left_col _ _).trans hn)
  have er : dot_S384x512_S512x4096_S384x4096_1_0_0_1_n_n.rhsIdx (ix2 d t) ((contrEquiv1 dot_S384x512_S512x4096_S384x4096_1_0_0_1_n_n 512 rfl rfl).symm n) = ix2 n t := funext fun x => Fin.ext (by
    match x with
    | ⟨0, _⟩ => exact (right_row _ _).trans hn
    | ⟨1, _⟩ => exact right_col _ _)
  rw [el, er]

/-! ## The stored block -/

/-- What one grid point stores, at `(u, d, t)` of its [1, 384, 4096] block: `Σ_n x[0, d, n] · path[0, n, t]` over the
    point's two loaded blocks. -/
theorem block_apply (xb : Vec Ideal S1x384x512 .f32) (pb : Vec Ideal S1x512x4096 .f32) (u : Fin 1) (d : Fin 384) (t : Fin 4096) :
    k0_pay1 (F := Ideal) xb pb (ix3 u d t) = ∑ n : Fin 512, xb (ix3 (0 : Fin 1) d n) * pb (ix3 (0 : Fin 1) n t) := by
  unfold k0_pay1
  rw [shapeCast_ab_1ab_apply, product_apply]
  refine Finset.sum_congr rfl fun n _ => ?_
  rw [truncf_apply, truncf_apply, shapeCast_1ab_ab_apply, shapeCast_1ab_ab_apply]

end Cert.LengthRegulator

end
-- ==== Proof.WholeArray.lean ====
/-
  From the grid points' blocks to the whole result array. The grid has 32 points, one per batch element; point `b`
  fetches block `(b, 0, 0)` of `x` and of `path` (all of `x[b]` and `path[b]`) and writes back block `(b, 0, 0)` of the
  result (all of `out[b]`). What it writes is the batched product `expand` of the two argument arrays restricted to
  that block, and the 32 blocks cover the result array, which therefore ends holding `expand x path`.
-/
import proofs.«164119_j51084341019265_1_alg».proof.Proof.Gen.KernelIdeal.Value
import proofs.«164119_j51084341019265_1_alg».proof.Proof.BlockProduct
import proofs.«164119_j51084341019265_1_alg».proof.Proof.Expand

noncomputable section

namespace Cert.LengthRegulator

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The two argument arrays as the region finds them, and the blocks point `b` loads from them, each at its literal
    type (so that products of their entries are products of extended reals). -/
abbrev xArr (c : Dev nD) : S32x384x512.Idx → EReal := V m c main_arg0
abbrev pathArr (c : Dev nD) : S32x512x4096.Idx → EReal := V m c main_arg1
abbrev xBlk (c : Dev nD) (b : Fin cfg0.N) : Vec Ideal S1x384x512 .f32 := iblk m c 0 b
abbrev pathBlk (c : Dev nD) (b : Fin cfg0.N) : Vec Ideal S1x512x4096 .f32 := iblk m c 1 b

theorem no_offset : (![0, 0, 0] : Fin 3 → Nat) = fun _ => 0 := funext fun a => by fin_cases a <;> rfl

/-- Every window's block index at point `b` is `(b, 0, 0)`. -/
theorem block_index : ∀ b : Fin cfg0.N,
    win0_0.index b (0 : Fin 3) = b.val ∧ win0_0.index b (1 : Fin 3) = 0 ∧ win0_0.index b (2 : Fin 3) = 0
    ∧ win0_1.index b (0 : Fin 3) = b.val ∧ win0_1.index b (1 : Fin 3) = 0 ∧ win0_1.index b (2 : Fin 3) = 0
    ∧ win0_2.index b (0 : Fin 3) = b.val ∧ win0_2.index b (1 : Fin 3) = 0 ∧ win0_2.index b (2 : Fin 3) = 0 :=
  (by decide +kernel : ∀ b : Fin grid0.N, _)

/-- The block's sum at a position of the stored block, with the position given whole. -/
theorem block_apply_at (xb : Vec Ideal S1x384x512 .f32) (pb : Vec Ideal S1x512x4096 .f32) (j : S1x384x4096.Idx) :
    k0_pay1 (F := Ideal) xb pb j = ∑ n : Fin 512, xb (ix3 (0 : Fin 1) (j 1) n) * pb (ix3 (0 : Fin 1) n (j 2)) := by
  rw [eq_ix3 j]
  exact block_apply xb pb (j 0) (j 1) (j 2)

/-- What point `b` writes back is block `b` of the batched product of the argument arrays. -/
theorem written_eq (c : Dev nD) (b : Fin cfg0.N) :
    (dats m 0 c).flushed 2 b = ((cfg0.win 2).blk b).view.read (Elt Ideal) (expand (xArr m c) (pathArr m c)) := by
  rw [Cert.KernelIdeal.Value.flushed2]
  unfold out0_2
  rw [View.canon_unit_zero no_offset]
  simp only [View.ld_unit_zero (S := S1x384x512) no_offset, View.ld_unit_zero (S := S1x512x4096) no_offset]
  obtain ⟨e00, e01, e02, e10, e11, e12, e20, e21, e22⟩ := block_index b
  funext j
  show k0_pay1 (F := Ideal) (xBlk m c b) (pathBlk m c b) j = expand (xArr m c) (pathArr m c) (((cfg0.win 2).blk b).view.emb j)
  refine (block_apply_at (xBlk m c b) (pathBlk m c b) j).trans ?_
  unfold expand
  refine Finset.sum_congr rfl fun n _ => ?_
  show xArr m c (((cfg0.win 0).blk b).view.emb (ix3 (0 : Fin 1) (j 1) n)) * pathArr m c (((cfg0.win 1).blk b).view.emb (ix3 (0 : Fin 1) n (j 2))) = _
  have hx : ((cfg0.win 0).blk b).view.emb (ix3 (0 : Fin 1) (j 1) n)
      = ix3 ((((cfg0.win 2).blk b).view.emb j) 0) ((((cfg0.win 2).blk b).view.emb j) 1) n := by
    funext a; apply Fin.ext
    match a with
    | ⟨0, _⟩ => show win0_0.index b (0 : Fin 3) * 1 + 1 * 0 = win0_2.index b (0 : Fin 3) * 1 + 1 * (j 0).val; have hj : (j 0).val < 1 := (j 0).isLt; omega
    | ⟨1, _⟩ => show win0_0.index b (1 : Fin 3) * 384 + 1 * (j 1).val = win0_2.index b (1 : Fin 3) * 384 + 1 * (j 1).val; omega
    | ⟨2, _⟩ => show win0_0.index b (2 : Fin 3) * 512 + 1 * n.val = n.val; omega
  have hp : ((cfg0.win 1).blk b).view.emb (ix3 (0 : Fin 1) n (j 2))
      = ix3 ((((cfg0.win 2).blk b).view.emb j) 0) n ((((cfg0.win 2).blk b).view.emb j) 2) := by
    funext a; apply Fin.ext
    match a with
    | ⟨0, _⟩ => show win0_1.index b (0 : Fin 3) * 1 + 1 * 0 = win0_2.index b (0 : Fin 3) * 1 + 1 * (j 0).val; have hj : (j 0).val < 1 := (j 0).isLt; omega
    | ⟨1, _⟩ => show win0_1.index b (1 : Fin 3) * 512 + 1 * n.val = n.val; omega
    | ⟨2, _⟩ => show win0_1.index b (2 : Fin 3) * 4096 + 1 * (j 2).val = win0_2.index b (2 : Fin 3) * 4096 + 1 * (j 2).val; omega
  rw [hx, hp]
  rfl

/-- An index of the result array lies in point `b`'s block iff each coordinate lies in the block's range on its axis. -/
theorem mem_block (b : Fin cfg0.N) (i : S32x384x4096.Idx) :
    i ∈ ((cfg0.win 2).blk b).view.set ↔ ∀ a : Fin 3, win0_2.index b a * S1x384x4096.size a ≤ (i a).val ∧ (i a).val < win0_2.index b a * S1x384x4096.size a + S1x384x4096.size a := by
  show i ∈ ((View.whole main_v0).slice (win0_2.rect b)).set ↔ _
  rw [View.set_slice_whole, Rect.mem_set_unit]
  exact Iff.rfl

/-- Every index `(b, d, t)` of the result array lies in the block point `b` writes back. -/
theorem covered (i : S32x384x4096.Idx) :
    ∃ b : Fin cfg0.N, (cfg0.win 2).flush b = true ∧ i ∈ ((cfg0.win 2).blk b).view.set := by
  have h0 : (i 0).val < 32 := (i 0).isLt
  have h1 : (i 1).val < 384 := (i 1).isLt
  have h2 : (i 2).val < 4096 := (i 2).isLt
  obtain ⟨-, -, -, -, -, -, e20, e21, e22⟩ := block_index ⟨(i 0).val, h0⟩
  refine ⟨⟨(i 0).val, h0⟩, flush0_2 _, ?_⟩
  rw [mem_block]
  intro a
  match a with
  | ⟨0, _⟩ => show win0_2.index ⟨(i 0).val, h0⟩ (0 : Fin 3) * 1 ≤ (i 0).val ∧ (i 0).val < win0_2.index ⟨(i 0).val, h0⟩ (0 : Fin 3) * 1 + 1; simp only [] at e20; omega
  | ⟨1, _⟩ => show win0_2.index ⟨(i 0).val, h0⟩ (1 : Fin 3) * 384 ≤ (i 1).val ∧ (i 1).val < win0_2.index ⟨(i 0).val, h0⟩ (1 : Fin 3) * 384 + 384; omega
  | ⟨2, _⟩ => show win0_2.index ⟨(i 0).val, h0⟩ (2 : Fin 3) * 4096 ≤ (i 2).val ∧ (i 2).val < win0_2.index ⟨(i 0).val, h0⟩ (2 : Fin 3) * 4096 + 4096; omega

/-- The result array after the run is the batched product of the argument arrays. -/
theorem result_eq (c : Dev nD) :
    (dats m 0 c).arrAt 2 cfg0.N = expand (m ((c : Thread nD τ).loc main_arg0)) (m ((c : Thread nD τ).loc main_arg1)) :=
  (dats m 0 c).arrAt_eq_of_cover 2 (expand (xArr m c) (pathArr m c)) (fun b _ => written_eq m c b) covered

/-- The kernel's run: the result array ends at the batched product of the arguments, which end unchanged. -/
theorem kernel_run : θ_run defs (onTc (τ := τ) (main (F := Ideal))) ⟨m, fun _ => 0, ρ⟩ fun r => ∀ c : Dev nD,
      r.2.mem ((c : Thread nD τ).loc main_v0) = expand (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.LengthRegulator

end
-- ==== Proof.lean ====
/-
  The length regulator: a batched matrix product, kernel against reference.

  Both programs take `x : f32[32, 384, 512]` and `path : f32[32, 512, 4096]` and return `f32[32, 384, 4096]`. The
  reference is `einsum("bdn,bnm->bdm", x, path)`, one `dot_general` with batch axis 0 that contracts the 512 text
  positions. The kernel runs a grid of 32 points, one per batch element; point `b` loads all of `x[b]` and `path[b]`,
  narrows both to bf16, multiplies them on the matrix unit into a zero f32 accumulator and stores all of `out[b]`.

  On the extended reals a change of float format is the identity and the matrix unit's product into zero is the plain
  sum of products, so both programs compute

      out[b, d, t] = Σ_n x[b, d, n] · path[b, n, t]

  (`Cert.LengthRegulator.expand`). The two sums run over the same 512 terms, so no law beyond the sum's own
  definition joins them, and the finiteness of the inputs is never used. The pieces: `Proof/Expand.lean` states the
  function; `Proof/EinsumIsExpand.lean` reads the reference's `dot_general` as it; `Proof/BlockProduct.lean` reads one
  grid point's stored block as its restriction to that batch element; `Proof/WholeArray.lean` puts the 32 blocks
  together into the result array. The kernel read on the extended reals is the kernel's own text, operation for
  operation, so `preserves` has no conjunct to prove.
-/
import proofs.«164119_j51084341019265_1_alg».proof.Defs
import proofs.«164119_j51084341019265_1_alg».proof.Proof.Gen.Kernel
import proofs.«164119_j51084341019265_1_alg».proof.Proof.Gen.Kernel.Skeleton
import proofs.«164119_j51084341019265_1_alg».proof.Proof.Gen.Kernel.Launch
import proofs.«164119_j51084341019265_1_alg».proof.Proof.Gen.Kernel.Points
import proofs.«164119_j51084341019265_1_alg».proof.Proof.Gen.Kernel.Frame
import proofs.«164119_j51084341019265_1_alg».proof.Proof.Gen.KernelIdeal
import proofs.«164119_j51084341019265_1_alg».proof.Proof.Gen.KernelIdeal.Skeleton
import proofs.«164119_j51084341019265_1_alg».proof.Proof.Gen.KernelIdeal.Launch
import proofs.«164119_j51084341019265_1_alg».proof.Proof.Gen.KernelIdeal.Points
import proofs.«164119_j51084341019265_1_alg».proof.Proof.Gen.KernelIdeal.Frame
import proofs.«164119_j51084341019265_1_alg».proof.Proof.Gen.ReferenceIdeal
import proofs.«164119_j51084341019265_1_alg».proof.Proof.Gen.Pre_finite_inputs
import proofs.«164119_j51084341019265_1_alg».proof.Proof.Gen.KernelIdeal.Value
import proofs.«164119_j51084341019265_1_alg».proof.Proof.Gen.ReferenceIdeal.Run
import proofs.«164119_j51084341019265_1_alg».proof.Proof.Gen.ReferenceIdeal.Read
import proofs.«164119_j51084341019265_1_alg».proof.Proof.EinsumIsExpand
import proofs.«164119_j51084341019265_1_alg».proof.Proof.WholeArray
import Idealize.ShloMosaic.Adequacy
import Idealize.ShloMosaic.Init

noncomputable section

namespace Cert.Proof

open Idealize.ShloMosaic Idealize.SL.Sem

/-- The word-level kernel terminates without a fault and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernel_ideal : @Cert.frame_KernelIdeal Cert.KernelIdeal.Gen.facts Cert.Pre_finite_inputs.Gen.facts :=
  fun m ρ _ => Cert.KernelIdeal.Gen.frame m ρ

/-- The reference is one host operation; its run ends with the arguments unchanged. -/
theorem frame_reference : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- From memories that agree on `x` and `path`, both programs end with the result array at the batched product
    `Σ_n x[b, d, n] · path[b, n, t]` of the arguments. -/
theorem same_result : @Cert.algebraic_KernelIdeal_ReferenceIdeal Cert.KernelIdeal.Gen.facts Cert.ReferenceIdeal.Gen.facts Cert.Pre_finite_inputs.Gen.facts := by
  intro m ρ m' ρ' _ hagree
  refine ⟨_, Cert.LengthRegulator.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.LengthRegulator.einsum_eq_expand _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, same_result⟩

end Cert.Proof

end
